-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1 : Shape := ⟨2, ![2048, 1]⟩
abbrev S2048x41024 : Shape := ⟨2, ![2048, 41024]⟩
abbrev S256x41024 : Shape := ⟨2, ![256, 41024]⟩
abbrev S256 : Shape := ⟨1, ![256]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel
  bcast_S_S2048x41024 : S_.BroadcastsInDim S2048x41024 (![] : Fin 0 → Fin S2048x41024.rank)
  reducesTo_S2048x41024_S_d0_1 : S2048x41024.ReducesTo [0, 1] S_
  bcast_S_S256x41024 : S_.BroadcastsInDim S256x41024 (![] : Fin 0 → Fin S256x41024.rank)
  reducesTo_S256x41024_S_d0_1 : S256x41024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x41024 .f32) (main_arg5 : FVec F S256 .f32) (main_v13 : IVec S_ 1) (main_v16 : IVec S2048x41024 1) : IVec S_ 1 :=
  let main_c_5 : IVec S_ 1 := constantI S_ 1 1#1
  let main_v17 : IVec S_ 1 := (fun x v => Host.reduce IntOp.andi x v reducesTo_S2048x41024_S_d0_1 h_S_) main_v16 main_c_5
  let main_v18 : IVec S_ 1 := andi main_v13 main_v17
  let main_v19 : FVec F S256x41024 .f32 := Host.absf main_arg4
  let main_cst_6 : FVec F S_ .f32 := constant S_ .f32 0x7F800000#32
  let main_v20 : FVec F S256x41024 .f32 := broadcastInDim S256x41024 ![] bcast_S_S256x41024 main_cst_6
  let main_v21 : IVec S256x41024 1 := cmpf .olt main_v19 main_v20
  let main_c_7 : IVec S_ 1 := constantI S_ 1 1#1
  let main_v22 : IVec S_ 1 := (fun x v => Host.reduce IntOp.andi x v reducesTo_S256x41024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S2048x1 .f32) (main_arg1 : FVec F S2048x1 .f32) (main_arg2 : FVec F S2048x41024 .f32) (main_arg3 : FVec F S2048x41024 .f32) (main_arg4 : FVec F S256x41024 .f32) (main_arg5 : FVec F S256 .f32) : IVec S_ 1 :=
  let main_v0 : FVec F S2048x1 .f32 := Host.absf main_arg0
  let main_cst : FVec F S_ .f32 := constant S_ .f32 0x7F800000#32
  let main_v1 : FVec F S2048x1 .f32 := broadcastInDim S2048x1 ![] bcast_S_S2048x1 main_cst
  let main_v2 : IVec S2048x1 1 := cmpf .olt main_v0 main_v1
  let main_c : IVec S_ 1 := constantI S_ 1 1#1
  let main_v3 : IVec S_ 1 := (fun x v => Host.reduce IntOp.andi x v reducesTo_S2048x1_S_d0_1 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S2048x41024 .f32 := Host.absf main_arg2
  let main_cst_2 : FVec F S_ .f32 := constant S_ .f32 0x7F800000#32
  let main_v10 : FVec F S2048x41024 .f32 := broadcastInDim S2048x41024 ![] bcast_S_S2048x41024 main_cst_2
  let main_v11 : IVec S2048x41024 1 := cmpf .olt main_v9 main_v10
  let main_c_3 : IVec S_ 1 := constantI S_ 1 1#1
  let main_v12 : IVec S_ 1 := (fun x v => Host.reduce IntOp.andi x v reducesTo_S2048x41024_S_d0_1 h_S_) main_v11 main_c_3
  let main_v13 : IVec S_ 1 := andi main_v8 main_v12
  let main_v14 : FVec F S2048x41024 .f32 := Host.absf main_arg3
  let main_cst_4 : FVec F S_ .f32 := constant S_ .f32 0x7F800000#32
  let main_v15 : FVec F S2048x41024 .f32 := broadcastInDim S2048x41024 ![] bcast_S_S2048x41024 main_cst_4
  let main_v16 : IVec S2048x41024 1 := cmpf .olt main_v14 main_v15
  fn_part1 (F := F) main_arg4 main_arg5 main_v13 main_v16
-- ==== Kernel.lean ====
abbrev S2048x1 : Shape := ⟨2, ![2048, 1]⟩
abbrev S2048x41024 : Shape := ⟨2, ![2048, 41024]⟩
abbrev S256x41024 : Shape := ⟨2, ![256, 41024]⟩
abbrev S256 : Shape := ⟨1, ![256]⟩
abbrev S1x256 : Shape := ⟨2, ![1, 256]⟩
abbrev S2048x512 : Shape := ⟨2, ![2048, 512]⟩
abbrev S16x41024 : Shape := ⟨2, ![16, 41024]⟩
abbrev S16x1 : Shape := ⟨2, ![16, 1]⟩
abbrev S16x512 : Shape := ⟨2, ![16, 512]⟩
abbrev S16x256 : Shape := ⟨2, ![16, 256]⟩

abbrev nBuf : Space → Nat
  | .hbm => 9
  | .vmem => 12
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S2048x41024, .f32⟩
  | .hbm, ⟨3, _⟩ => ⟨S2048x41024, .f32⟩
  | .hbm, ⟨4, _⟩ => ⟨S256x41024, .f32⟩
  | .hbm, ⟨5, _⟩ => ⟨S256, .f32⟩
  | .hbm, ⟨6, _⟩ => ⟨S256x41024, .bf16⟩
  | .hbm, ⟨7, _⟩ => ⟨S1x256, .f32⟩
  | .hbm, ⟨8, _⟩ => ⟨S2048x512, .f32⟩
  | .local _ .vmem, ⟨0, _⟩ => ⟨S16x41024, .f32⟩
  | .local _ .vmem, ⟨1, _⟩ => ⟨S16x41024, .f32⟩
  | .local _ .vmem, ⟨2, _⟩ => ⟨S16x41024, .f32⟩
  | .local _ .vmem, ⟨3, _⟩ => ⟨S16x41024, .f32⟩
  | .local _ .vmem, ⟨4, _⟩ => ⟨S256x41024, .bf16⟩
  | .local _ .vmem, ⟨5, _⟩ => ⟨S1x256, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | .local _ .vmem, ⟨10, _⟩ => ⟨S16x512, .f32⟩
  | .local _ .vmem, ⟨11, _⟩ => ⟨S16x512, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x41024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x41024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x41024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S256_S1x256 : S256.ShapeCasts S1x256
  inb_S16x41024_S16x41024_0_0 : ∀ a, (![0, 0] : Fin 2 → Nat) a + S16x41024.size a ≤ S16x41024.size a
  h_S16x41024 : 0 < S16x41024.numel
  inb_S256x41024_S256x41024_0_0 : ∀ a, (![0, 0] : Fin 2 → Nat) a + S256x41024.size a ≤ S256x41024.size a
  h_S256x41024 : 0 < S256x41024.numel
  shapeCasts_S256x41024_S256x41024 : S256x41024.ShapeCasts S256x41024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x1_S16x1_0_0 : ∀ a, (![0, 0] : Fin 2 → Nat) a + S16x1.size a ≤ S16x1.size a
  h_S16x1 : 0 < S16x1.numel
  broadcasts_S16x1_S16x256 : S16x1.Broadcasts S16x256
  concatenates_S16x256_S16x256_S16x512_d1 : Shape.Concatenates [S16x256, S16x256] S16x512 1
  inb_S16x512_S16x512_0_0 : ∀ a, (![0, 0] : Fin 2 → Nat) a + S16x512.size a ≤ S16x512.size a
  h_S16x512 : 0 < S16x512.numel
  dot_S16x41024_S256x41024_S16x256_1_1_0_0_n_n_wf : DotDims.WF S16x41024 S256x41024 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x41024.size a ≤ S2048x41024.size a
  hwx0_0 : ∀ i : grid0.Coords, EltTy.bits .f32 = 32 ∨ (Rect.block (s := S2048x41024) S16x41024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x41024.size a ≤ S2048x41024.size a
  hwx0_1 : ∀ i : grid0.Coords, EltTy.bits .f32 = 32 ∨ (Rect.block (s := S2048x41024) S16x41024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x41024.size a ≤ S256x41024.size a
  hwx0_2 : ∀ i : grid0.Coords, EltTy.bits .bf16 = 32 ∨ (Rect.block (s := S256x41024) S256x41024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S2048x1.size a
  hwx0_4 : ∀ i : grid0.Coords, EltTy.bits .f32 = 32 ∨ (Rect.block (s := S2048x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S2048x1.size a
  hwx0_5 : ∀ i : grid0.Coords, EltTy.bits .f32 = 32 ∨ (Rect.block (s := S2048x1) S16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512.size a ≤ S2048x512.size a
  hwx0_6 : ∀ i : grid0.Coords, EltTy.bits .f32 = 32 ∨ (Rect.block (s := S2048x512) S16x512.size (cc0_transform_6 i) (hinb0_6 i)).WholeWords (EltTy.packing .f32)

variable [Facts₀]

def dot_S16x41024_S256x41024_S16x256_1_1_0_0_n_n : DotDims S16x41024 S256x41024 S16x256 where
  lhsContracting := [1]
  rhsContracting := [1]
  lhsNonContracting := [0]
  rhsNonContracting := [0]
  lhsBatch := []
  rhsBatch := []
  wf := dot_S16x41024_S256x41024_S16x256_1_1_0_0_n_n_wf

abbrev win0_0 : Pipeline.Window sig grid0 :=
  Pipeline.Window.ofSpec (Memref.whole main_arg2) S16x41024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x41024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x41024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S16x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S16x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x1 : Shape := ⟨2, ![2048, 1]⟩
abbrev S2048x41024 : Shape := ⟨2, ![2048, 41024]⟩
abbrev S256x41024 : Shape := ⟨2, ![256, 41024]⟩
abbrev S256 : Shape := ⟨1, ![256]⟩
abbrev S41024x256 : Shape := ⟨2, ![41024, 256]⟩
abbrev S2048x256 : Shape := ⟨2, ![2048, 256]⟩
abbrev S1x256 : Shape := ⟨2, ![1, 256]⟩
abbrev S2048x512 : Shape := ⟨2, ![2048, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S2048x41024, .f32⟩
  | .hbm, ⟨3, _⟩ => ⟨S2048x41024, .f32⟩
  | .hbm, ⟨4, _⟩ => ⟨S256x41024, .f32⟩
  | .hbm, ⟨5, _⟩ => ⟨S256, .f32⟩
  | .hbm, ⟨6, _⟩ => ⟨S41024x256, .f32⟩
  | .hbm, ⟨7, _⟩ => ⟨S2048x256, .f32⟩
  | .hbm, ⟨8, _⟩ => ⟨S1x256, .f32⟩
  | .hbm, ⟨9, _⟩ => ⟨S2048x256, .f32⟩
  | .hbm, ⟨10, _⟩ => ⟨S2048x256, .f32⟩
  | .hbm, ⟨11, _⟩ => ⟨S41024x256, .f32⟩
  | .hbm, ⟨12, _⟩ => ⟨S2048x256, .f32⟩
  | .hbm, ⟨13, _⟩ => ⟨S1x256, .f32⟩
  | .hbm, ⟨14, _⟩ => ⟨S2048x256, .f32⟩
  | .hbm, ⟨15, _⟩ => ⟨S2048x256, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  transposes_S256x41024_S41024x256_1_0 : S256x41024.Transposes [1, 0] S41024x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  concatenates_S2048x256_S2048x256_S2048x512_d1 : Shape.Concatenates [S2048x256, S2048x256] S2048x512 1
  bcast_S2048x1_S2048x512_0_1 : S2048x1.BroadcastsInDim S2048x512 (![0, 1] : Fin 2 → Fin S2048x512.rank)
  bcast_S_S2048x512 : S_.BroadcastsInDim S2048x512 (![] : Fin 0 → Fin S2048x512.rank)
  dot_S2048x41024_S41024x256_S2048x256_1_0_0_1_n_n_wf : DotDims.WF S2048x41024 S41024x256 S2048x256 [1] [0] [0] [1] [] []

variable [Facts₀]

def dot_S2048x41024_S41024x256_S2048x256_1_0_0_1_n_n : DotDims S2048x41024 S41024x256 S2048x256 where
  lhsContracting := [1]
  rhsContracting := [0]
  lhsNonContracting := [0]
  rhsNonContracting := [1]
  lhsBatch := []
  rhsBatch := []
  wf := dot_S2048x41024_S41024x256_S2048x256_1_0_0_1_n_n_wf

class Facts : Prop extends Facts₀ where

variable [Facts]
-- ==== Proof.MixSpec.lean ====
/-
  The result of the feature transformer, one entry at a time, over the extended reals.

  Two perspectives share one linear layer. For a feature matrix `x` (2048 rows of 41024 features), the weight `W`
  (256 rows of 41024) and the bias `b`, entry (r, j) of the layer is the inner product of row `r` of `x` with row `j`
  of `W`, plus `b j` (`lin`). With `w` the layer of the first feature matrix and `v` the layer of the second, the
  result has 512 columns: column `q < 256` of row `r` mixes `us r · w r q + them r · v r q`, column `256 + q` mixes the
  two the other way round, `them r · w r q + us r · v r q`, and every entry is clamped to the interval [0, 1]
  (`entry`). The two bounds are kept as the words the programs print, so that neither is ever evaluated.
-/
import Idealize.ShloMosaic.PureOps.Ideal
import Idealize.ShloMosaic.Lib.ValueIdx

noncomputable section

open scoped BigOperators

namespace Cert.Mix

open Idealize.ShloMosaic Idealize.ShloMosaic.ValueIdx

/-- Entry (r, j) of the linear layer: row `r` of `x` against row `j` of `W`, plus the bias. -/
def lin (x : FVec Ideal (⟨2, ![2048, 41024]⟩ : Shape) .f32) (W : (⟨2, ![256, 41024]⟩ : Shape).Idx → EReal)
    (b : FVec Ideal (⟨1, ![256]⟩ : Shape) .f32) (r : Fin 2048) (j : Fin 256) : EReal :=
  (∑ k : Fin 41024, x (ix2 r k) * W (ix2 j k)) + b (ix1 j)

/-- The clamp to [0, 1]: the larger of zero and `y`, then the smaller of one and that. -/
def clamp01 (y : EReal) : EReal :=
  min (Ideal.ofBits .f32 0x3F800000#32) (max (Ideal.ofBits .f32 0x00000000#32) y)

/-- Entry (r, q) of the result: the first 256 columns weigh the first layer by `us` and the second by `them`, the
    last 256 the first by `them` and the second by `us`. -/
def entry (us them : FVec Ideal (⟨2, ![2048, 1]⟩ : Shape) .f32) (xw xb : FVec Ideal (⟨2, ![2048, 41024]⟩ : Shape) .f32)
    (W : (⟨2, ![256, 41024]⟩ : Shape).Idx → EReal) (b : FVec Ideal (⟨1, ![256]⟩ : Shape) .f32)
    (r : Fin 2048) (q : Fin 512) : EReal :=
  clamp01 (if h : q.val < 256
    then us (ix2 r (0 : Fin 1)) * lin xw W b r ⟨q.val, h⟩ + them (ix2 r (0 : Fin 1)) * lin xb W b r ⟨q.val, h⟩
    else them (ix2 r (0 : Fin 1)) * lin xw W b r ⟨q.val - 256, by have := q.isLt; omega⟩
      + us (ix2 r (0 : Fin 1)) * lin xb W b r ⟨q.val - 256, by have := q.isLt; omega⟩)

/-- The whole result array as one function of the six argument arrays. -/
def result (us them : FVec Ideal (⟨2, ![2048, 1]⟩ : Shape) .f32) (xw xb : FVec Ideal (⟨2, ![2048, 41024]⟩ : Shape) .f32)
    (W : (⟨2, ![256, 41024]⟩ : Shape).Idx → EReal) (b : FVec Ideal (⟨1, ![256]⟩ : Shape) .f32) :
    FVec Ideal (⟨2, ![2048, 512]⟩ : Shape) .f32 :=
  fun i => entry us them xw xb W b (i 0) (i 1)

/-- A column in the first half reads the first arrangement. -/
theorem entry_left (us them : FVec Ideal (⟨2, ![2048, 1]⟩ : Shape) .f32) (xw xb : FVec Ideal (⟨2, ![2048, 41024]⟩ : Shape) .f32)
    (W : (⟨2, ![256, 41024]⟩ : Shape).Idx → EReal) (b : FVec Ideal (⟨1, ![256]⟩ : Shape) .f32)
    (r : Fin 2048) (q : Fin 512) (h : q.val < 256) :
    entry us them xw xb W b r q
      = clamp01 (us (ix2 r (0 : Fin 1)) * lin xw W b r ⟨q.val, h⟩ + them (ix2 r (0 : Fin 1)) * lin xb W b r ⟨q.val, h⟩) := by
  unfold entry
  rw [dif_pos h]

/-- A column in the second half reads the second arrangement, 256 columns back. -/
theorem entry_right (us them : FVec Ideal (⟨2, ![2048, 1]⟩ : Shape) .f32) (xw xb : FVec Ideal (⟨2, ![2048, 41024]⟩ : Shape) .f32)
    (W : (⟨2, ![256, 41024]⟩ : Shape).Idx → EReal) (b : FVec Ideal (⟨1, ![256]⟩ : Shape) .f32)
    (r : Fin 2048) (q : Fin 512) (h : ¬ q.val < 256) (j : Fin 256) (hj : j.val + 256 = q.val) :
    entry us them xw xb W b r q
      = clamp01 (them (ix2 r (0 : Fin 1)) * lin xw W b r j + us (ix2 r (0 : Fin 1)) * lin xb W b r j) := by
  unfold entry
  rw [dif_neg h]
  have e : (⟨q.val - 256, by have := q.isLt; omega⟩ : Fin 256) = j := Fin.ext (by show q.val - 256 = j.val; omega)
  rw [e]

end Cert.Mix

end
-- ==== Proof.LibMatmulRowsAt.lean ====
/-
  A matrix product of two operands contracted along their LAST axes, into a zero accumulator, read at one entry over
  the extended reals.

  For dimension numbers that contract the second axis of the left operand with the second axis of the right one, with
  no batch axis — so that the left operand is read at (row, k) and the right at (column, k): the product of an
  [A × K] matrix with the transpose of a [B × K] matrix — entry (p, q) is `∑ₖ l[p, k] · r[q, k]`. The four facts about
  where the dimension numbers read their operands are hypotheses, so that the lemma serves any printed record of this
  kind.
-/
import Idealize.ShloMosaic.PureOps.Ideal.Laws
import Idealize.ShloMosaic.Lib.ValueIdx

noncomputable section

open scoped BigOperators

namespace Idealize.ShloMosaic.MatmulRowsAt

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_rows_zero_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsAt

end
-- ==== Proof.KernelEntry.lean ====
/-
  What the kernel's body stores, read at one entry of its [16 × 512] block, over the extended reals.

  The body takes a block of 16 rows of each feature matrix, the whole weight, the bias as one row, and the 16 rows'
  two mixing weights. It forms two layer blocks, each the product of a feature block with the transpose of the
  weight plus the bias row repeated down the rows (`layerBlk`); mixes them once as `us · w + them · v` and once as
  `them · w + us · v` (`halfA`, `halfB`); joins the two side by side; and clamps to [0, 1]. Narrowing a feature block
  or the weight to a shorter float format changes nothing over the extended reals.

  Read at (p, q): a column in the first half comes from the first mix at (p, q), one in the second half from the
  second mix 256 columns back; a mixing weight is read at its row; the bias at its column; and the product is the sum
  over the 41024 features of row `p` of the feature block against row `q` of the weight.
-/
import proofs.«180061_j10204842296092_1_alg».proof.Proof.Gen.KernelIdeal.Skeleton
import proofs.«180061_j10204842296092_1_alg».proof.Proof.MixSpec
import proofs.«180061_j10204842296092_1_alg».proof.Proof.LibMatmulRowsAt
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-! ## Where the product's dimension numbers read their operands -/

theorem lhs_0 (i : S16x256.Idx) (q : dot_S16x41024_S256x41024_S16x256_1_1_0_0_n_n.contr.Idx) :
    (dot_S16x41024_S256x41024_S16x256_1_1_0_0_n_n.lhsIdx i q 0).val = (i 0).val := by
  unfold DotDims.lhsIdx
  rw [dif_neg (show ¬(0 : Fin S16x41024.rank) ∈ dot_S16x41024_S256x41024_S16x256_1_1_0_0_n_n.lhsBatch by decide), dif_pos (show (0 : Fin S16x41024.rank) ∈ dot_S16x41024_S256x41024_S16x256_1_1_0_0_n_n.lhsNonContracting by decide)]
  rfl

theorem lhs_1 (i : S16x256.Idx) (q : dot_S16x41024_S256x41024_S16x256_1_1_0_0_n_n.contr.Idx) :
    (dot_S16x41024_S256x41024_S16x256_1_1_0_0_n_n.lhsIdx i q 1).val = (q ⟨0, by decide⟩).val :=
  dot_S16x41024_S256x41024_S16x256_1_1_0_0_n_n.lhsIdx_val_of_single rfl i q

theorem rhs_0 (i : S16x256.Idx) (q : dot_S16x41024_S256x41024_S16x256_1_1_0_0_n_n.contr.Idx) :
    (dot_S16x41024_S256x41024_S16x256_1_1_0_0_n_n.rhsIdx i q 0).val = (i 1).val := by
  unfold DotDims.rhsIdx
  rw [dif_neg (show ¬(0 : Fin S256x41024.rank) ∈ dot_S16x41024_S256x41024_S16x256_1_1_0_0_n_n.rhsBatch by decide), dif_pos (show (0 : Fin S256x41024.rank) ∈ dot_S16x41024_S256x41024_S16x256_1_1_0_0_n_n.rhsNonContracting by decide)]
  rfl

theorem rhs_1 (i : S16x256.Idx) (q : dot_S16x41024_S256x41024_S16x256_1_1_0_0_n_n.contr.Idx) :
    (dot_S16x41024_S256x41024_S16x256_1_1_0_0_n_n.rhsIdx i q 1).val = (q ⟨0, by decide⟩).val :=
  dot_S16x41024_S256x41024_S16x256_1_1_0_0_n_n.rhsIdx_val_of_single rfl i q

/-- The product of a feature block with the transposed weight, at (p, j): the inner product of row `p` with row `j`. -/
theorem product_at (l : FVec Ideal S16x41024 .bf16) (r : FVec Ideal S256x41024 .bf16) (p : Fin 16) (j : Fin 256) :
    matmul dot_S16x41024_S256x41024_S16x256_1_1_0_0_n_n none l r (constant (F := Ideal) S16x256 .f32 0x00000000#32) (ix2 p j)
      = ∑ k : Fin 41024, l (ix2 p k) * r (ix2 j k) :=
  MatmulRowsAt.matmul_rows_zero_at dot_S16x41024_S256x41024_S16x256_1_1_0_0_n_n rfl rfl lhs_0 lhs_1 rhs_0 rhs_1 none l r p j

/-! ## The two broadcasts and the join, at an entry -/

/-- The bias row repeated down the 16 rows reads the bias at the column. -/
theorem biasRows_at (x3 : FVec Ideal S1x256 .f32) (p : Fin 16) (j : Fin 256) :
    broadcastTo S16x256 (shapeCast S1x256 x3 shapeCasts_S1x256_S1x256) broadcasts_S1x256_S16x256 (ix2 p j)
      = x3 (ix2 (0 : Fin 1) j) := by
  rw [shapeCast_self]
  exact broadcastTo_apply x3 broadcasts_S1x256_S16x256 (ix2 p j) (ix2 (0 : Fin 1) j) (fun a => match a with
    | ⟨0, _⟩ => by show 0 = if (1 : Nat) = 1 then 0 else p.val; rw [if_pos rfl]
    | ⟨1, _⟩ => by show j.val = if (256 : Nat) = 1 then 0 else j.val; rw [if_neg (by decide)])

/-- A column of 16 mixing weights repeated across the 256 columns reads the weight of the row. -/
theorem weightCols_at (x4 : FVec Ideal S16x1 .f32) (p : Fin 16) (j : Fin 256) :
    broadcastTo S16x256 x4 broadcasts_S16x1_S16x256 (ix2 p j) = x4 (ix2 p (0 : Fin 1)) :=
  broadcastTo_apply x4 broadcasts_S16x1_S16x256 (ix2 p j) (ix2 p (0 : Fin 1)) (fun a => match a with
    | ⟨0, _⟩ => by show p.val = if (16 : Nat) = 1 then 0 else p.val; rw [if_neg (by decide)]
    | ⟨1, _⟩ => by show 0 = if (1 : Nat) = 1 then 0 else j.val; rw [if_pos rfl])

/-- Two [16 × 256] blocks joined side by side, at a column of the first half: the first block there. -/
theorem join_left (a b : FVec Ideal S16x256 .f32) (p : Fin 16) (q : Fin 512) (h : q.val < 256) :
    concatenate S16x512 1 [⟨S16x256, a⟩, ⟨S16x256, b⟩] concatenates_S16x256_S16x256_S16x512_d1 (ix2 p q)
      = a (ix2 p (⟨q.val, h⟩ : Fin 256)) :=
  concatenate_pair_apply_left 1 a b concatenates_S16x256_S16x256_S16x512_d1 (ix2 p q) rfl (ix2 p (⟨q.val, h⟩ : Fin 256))
    (fun c => match c with
      | ⟨0, _⟩ => rfl
      | ⟨1, _⟩ => rfl)

/-- At a column of the second half: the second block, 256 columns back. -/
theorem join_right (a b : FVec Ideal S16x256 .f32) (p : Fin 16) (q : Fin 512) (j : Fin 256) (hj : j.val + 256 = q.val) :
    concatenate S16x512 1 [⟨S16x256, a⟩, ⟨S16x256, b⟩] concatenates_S16x256_S16x256_S16x512_d1 (ix2 p q)
      = b (ix2 p j) :=
  concatenate_pair_apply_right 1 a b concatenates_S16x256_S16x256_S16x512_d1 (ix2 p q) rfl rfl (ix2 p j)
    (fun c hc => match c, hc with
      | ⟨0, _⟩, _ => rfl
      | ⟨1, _⟩, hc => absurd rfl hc)
    hj

/-! ## The body's value as named pieces -/

/-- One layer block: a feature block against the transposed weight, plus the bias row repeated down the rows. -/
def layerBlk (x : FVec Ideal S16x41024 .f32) (x2 : FVec Ideal S256x41024 .bf16) (x3 : FVec Ideal S1x256 .f32) : FVec Ideal S16x256 .f32 :=
  addf (matmul dot_S16x41024_S256x41024_S16x256_1_1_0_0_n_n none (truncf .bf16 x bitsLt_bf16_f32)
      (shapeCast S256x41024 x2 shapeCasts_S256x41024_S256x41024) (constant S16x256 .f32 0x00000000#32))
    (broadcastTo S16x256 (shapeCast S1x256 x3 shapeCasts_S1x256_S1x256) broadcasts_S1x256_S16x256)

/-- A layer block at (p, j): row `p` of the feature block against row `j` of the weight, plus the bias at `j`. -/
theorem layerBlk_at (x : FVec Ideal S16x41024 .f32) (x2 : FVec Ideal S256x41024 .bf16) (x3 : FVec Ideal S1x256 .f32) (p : Fin 16) (j : Fin 256) :
    layerBlk x x2 x3 (ix2 p j) = (∑ k : Fin 41024, x (ix2 p k) * x2 (ix2 j k)) + x3 (ix2 (0 : Fin 1) j) := by
  unfold layerBlk
  rw [addf_apply, biasRows_at, shapeCast_self, product_at]
  rfl

/-- The first mix: the first layer block weighed by `a`, the second by `b`. -/
def mixBlk (a b : FVec Ideal S16x1 .f32) (w v : FVec Ideal S16x256 .f32) : FVec Ideal S16x256 .f32 :=
  addf (mulf (broadcastTo S16x256 a broadcasts_S16x1_S16x256) w) (mulf (broadcastTo S16x256 b broadcasts_S16x1_S16x256) v)

theorem mixBlk_at (a b : FVec Ideal S16x1 .f32) (w v : FVec Ideal S16x256 .f32) (p : Fin 16) (j : Fin 256) :
    mixBlk a b w v (ix2 p j) = a (ix2 p (0 : Fin 1)) * w (ix2 p j) + b (ix2 p (0 : Fin 1)) * v (ix2 p j) := by
  unfold mixBlk
  rw [addf_apply, mulf_apply, mulf_apply, weightCols_at, weightCols_at]

set_option maxRecDepth 65536 in
/-- The body's stored value is the clamp of the two mixes joined side by side. -/
theorem payload_eq (x0 x1 : FVec Ideal S16x41024 .f32) (x2 : FVec Ideal S256x41024 .bf16) (x3 : FVec Ideal S1x256 .f32) (x4 x5 : FVec Ideal S16x1 .f32) :
    k0_pay1 x0 x1 x2 x3 x4 x5
      = minimumf (broadcast S16x512 (Scalar.ofBits (F := Ideal) .f32 0x3F800000#32))
          (maximumf (broadcast S16x512 (Scalar.ofBits (F := Ideal) .f32 0x00000000#32))
            (concatenate S16x512 1 [⟨S16x256, mixBlk x4 x5 (layerBlk x0 x2 x3) (layerBlk x1 x2 x3)⟩,
              ⟨S16x256, mixBlk x5 x4 (layerBlk x0 x2 x3) (layerBlk x1 x2 x3)⟩] concatenates_S16x256_S16x256_S16x512_d1)) := rfl

/-- The stored value at a column of the first half. -/
theorem payload_left (x0 x1 : FVec Ideal S16x41024 .f32) (x2 : FVec Ideal S256x41024 .bf16) (x3 : FVec Ideal S1x256 .f32) (x4 x5 : FVec Ideal S16x1 .f32)
    (p : Fin 16) (q : Fin 512) (h : q.val < 256) :
    k0_pay1 (F := Ideal) x0 x1 x2 x3 x4 x5 (ix2 p q)
      = Cert.Mix.clamp01 (x4 (ix2 p (0 : Fin 1)) * ((∑ k : Fin 41024, x0 (ix2 p k) * x2 (ix2 (⟨q.val, h⟩ : Fin 256) k)) + x3 (ix2 (0 : Fin 1) (⟨q.val, h⟩ : Fin 256)))
          + x5 (ix2 p (0 : Fin 1)) * ((∑ k : Fin 41024, x1 (ix2 p k) * x2 (ix2 (⟨q.val, h⟩ : Fin 256) k)) + x3 (ix2 (0 : Fin 1) (⟨q.val, h⟩ : Fin 256)))) := by
  rw [payload_eq, minimumf_apply, maximumf_apply, broadcast_apply, broadcast_apply, join_left _ _ p q h, mixBlk_at,
    layerBlk_at, layerBlk_at]
  rfl

/-- The stored value at a column of the second half, 256 columns back. -/
theorem payload_right (x0 x1 : FVec Ideal S16x41024 .f32) (x2 : FVec Ideal S256x41024 .bf16) (x3 : FVec Ideal S1x256 .f32) (x4 x5 : FVec Ideal S16x1 .f32)
    (p : Fin 16) (q : Fin 512) (j : Fin 256) (hj : j.val + 256 = q.val) :
    k0_pay1 (F := Ideal) x0 x1 x2 x3 x4 x5 (ix2 p q)
      = Cert.Mix.clamp01 (x5 (ix2 p (0 : Fin 1)) * ((∑ k : Fin 41024, x0 (ix2 p k) * x2 (ix2 j k)) + x3 (ix2 (0 : Fin 1) j))
          + x4 (ix2 p (0 : Fin 1)) * ((∑ k : Fin 41024, x1 (ix2 p k) * x2 (ix2 j k)) + x3 (ix2 (0 : Fin 1) j))) := by
  rw [payload_eq, minimumf_apply, maximumf_apply, broadcast_apply, broadcast_apply, join_right _ _ p q j hj, mixBlk_at,
    layerBlk_at, layerBlk_at]
  rfl

end Cert.KernelIdeal.Entry

end
-- ==== Proof.KernelArray.lean ====
/-
  From the kernel's blocks to its result array, over the extended reals.

  The grid has 128 points. Point `t` is handed rows `16 t … 16 t + 15` of both feature matrices and of the two
  mixing-weight columns, the whole weight (narrowed to a shorter float format before the region, which changes nothing
  over the extended reals) and the bias laid out as one row; it writes back rows `16 t … 16 t + 15` of the result, all
  512 columns. So entry (p, q) of what point `t` writes is the specification's entry (16 t + p, q) of the argument
  arrays (`flushed_eq`): each block entry the body reads is the array entry the specification reads. The 128 blocks
  of 16 rows tile the 2048 rows (`cover`: row `r` lies in the block of point `r / 16`), hence the array the run
  leaves is the specification's result everywhere (`final`, `run`).
-/
import proofs.«180061_j10204842296092_1_alg».proof.Proof.Gen.KernelIdeal.Value
import proofs.«180061_j10204842296092_1_alg».proof.Proof.KernelEntry
import proofs.«180061_j10204842296092_1_alg».proof.Proof.MixSpec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result array the specification assigns to the argument arrays as launched. -/
abbrev target (c : Dev nD) : FVec Ideal S2048x512 .f32 :=
  Cert.Mix.result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

theorem hz : (![0, 0] : Fin 2 → Nat) = fun _ => 0 := funext fun a => by fin_cases a <;> rfl

/-! ## Where each window's block sits -/

/-- The printed index maps, decided over the 128 points: the two feature windows, the two mixing-weight windows and
    the result window sit at block row `t`, block column 0; the weight and the bias windows never move. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `16 t + p` of the array. -/
def row (t : Fin cfg0.N) (p : Fin 16) : Fin 2048 :=
  ⟨t.val * 16 + p.val, by have ht : t.val < 128 := t.isLt; have hp := p.isLt; omega⟩

/-! ## The arrays the region finds -/

/-- The weight as the region finds it is the launched weight narrowed, which over the extended reals is the launched
    weight. -/
theorem weightArr (c : Dev nD) :
    @Eq (FVec Ideal S256x41024 .bf16) (V m c main_v0) (truncf (F := Ideal) .bf16 (m ((c : Thread nD τ).loc main_arg4)) bitsLt_bf16_f32) := by
  dsimp only [Gen.V, Gen.hostOps0]
  after_results

/-- The bias as the region finds it is the launched bias laid out as one row. -/
theorem biasArr (c : Dev nD) :
    @Eq (FVec Ideal S1x256 .f32) (V m c main_v1) (shapeCast S1x256 (m ((c : Thread nD τ).loc main_arg5)) shapeCasts_S256_S1x256) := by
  dsimp only [Gen.V, Gen.hostOps0]
  after_results
  rfl

/-! ## Each block entry the body reads is the array entry the specification reads -/

/-- The first feature block at (p, k) is the first feature matrix at (16 t + p, k). -/
theorem featW_at (c : Dev nD) (t : Fin cfg0.N) (p : Fin 16) (k : Fin 41024) :
    @Eq EReal (iblk m c 0 t (ix2 p k)) (m ((c : Thread nD τ).loc main_arg2) (ix2 (row t p) k)) := by
  show V m c main_arg2 (((cfg0.win 0).blk t).view.emb (ix2 p k)) = _
  rw [V_main_arg2]
  refine congrArg _ (funext fun a => Fin.ext ?_)
  obtain ⟨-, -, e0, e1, -⟩ := idx_facts t
  match a with
  | ⟨0, _⟩ => show win0_0.index t (0 : Fin 2) * 16 + 1 * p.val = t.val * 16 + p.val; omega
  | ⟨1, _⟩ => show win0_0.index t (1 : Fin 2) * 41024 + 1 * k.val = k.val; omega

/-- The second feature block at (p, k) is the second feature matrix at (16 t + p, k). -/
theorem featB_at (c : Dev nD) (t : Fin cfg0.N) (p : Fin 16) (k : Fin 41024) :
    @Eq EReal (iblk m c 1 t (ix2 p k)) (m ((c : Thread nD τ).loc main_arg3) (ix2 (row t p) k)) := by
  show V m c main_arg3 (((cfg0.win 1).blk t).view.emb (ix2 p k)) = _
  rw [V_main_arg3]
  refine congrArg _ (funext fun a => Fin.ext ?_)
  obtain ⟨-, -, -, -, e0, e1, -⟩ := idx_facts t
  match a with
  | ⟨0, _⟩ => show win0_1.index t (0 : Fin 2) * 16 + 1 * p.val = t.val * 16 + p.val; omega
  | ⟨1, _⟩ => show win0_1.index t (1 : Fin 2) * 41024 + 1 * k.val = k.val; omega

/-- The weight block at (j, k) is the launched weight at (j, k). -/
theorem weight_at (c : Dev nD) (t : Fin cfg0.N) (j : Fin 256) (k : Fin 41024) :
    @Eq EReal (iblk m c 2 t (ix2 j k)) (m ((c : Thread nD τ).loc main_arg4) (ix2 j k)) := by
  show V m c main_v0 (((cfg0.win 2).blk t).view.emb (ix2 j k)) = _
  rw [weightArr]
  show m ((c : Thread nD τ).loc main_arg4) (((cfg0.win 2).blk t).view.emb (ix2 j k)) = _
  refine congrArg _ (funext fun a => Fin.ext ?_)
  obtain ⟨-, -, -, -, -, -, e0, e1, -⟩ := idx_facts t
  match a with
  | ⟨0, _⟩ => show win0_2.index t (0 : Fin 2) * 256 + 1 * j.val = j.val; omega
  | ⟨1, _⟩ => show win0_2.index t (1 : Fin 2) * 41024 + 1 * k.val = k.val; omega

/-- The bias block at (0, j) is the launched bias at j. -/
theorem bias_at (c : Dev nD) (t : Fin cfg0.N) (j : Fin 256) :
    @Eq EReal (iblk m c 3 t (ix2 (0 : Fin 1) j)) (m ((c : Thread nD τ).loc main_arg5) (ix1 j)) := by
  show V m c main_v1 (((cfg0.win 3).blk t).view.emb (ix2 (0 : Fin 1) j)) = _
  rw [biasArr]
  refine shapeCast_apply _ shapeCasts_S256_S1x256 _ (ix1 j) ?_
  obtain ⟨-, -, -, -, -, -, -, -, e0, e1, -⟩ := idx_facts t
  rw [Shape.rowMajor_val_one, Shape.rowMajor_val_two]
  show j.val = (win0_3.index t (0 : Fin 2) * 1 + 1 * 0) * 256 + (win0_3.index t (1 : Fin 2) * 256 + 1 * j.val)
  omega

/-- The first mixing-weight block at (p, 0) is the first mixing-weight column at row 16 t + p. -/
theorem us_at (c : Dev nD) (t : Fin cfg0.N) (p : Fin 16) :
    @Eq EReal (iblk m c 4 t (ix2 p (0 : Fin 1))) (m ((c : Thread nD τ).loc main_arg0) (ix2 (row t p) (0 : Fin 1))) := by
  show V m c main_arg0 (((cfg0.win 4).blk t).view.emb (ix2 p (0 : Fin 1))) = _
  rw [V_main_arg0]
  refine congrArg _ (funext fun a => Fin.ext ?_)
  obtain ⟨-, -, -, -, -, -, -, -, -, -, e0, e1, -⟩ := idx_facts t
  match a with
  | ⟨0, _⟩ => show win0_4.index t (0 : Fin 2) * 16 + 1 * p.val = t.val * 16 + p.val; omega
  | ⟨1, _⟩ => show win0_4.index t (1 : Fin 2) * 1 + 1 * 0 = 0; omega

/-- The second mixing-weight block at (p, 0) is the second mixing-weight column at row 16 t + p. -/
theorem them_at (c : Dev nD) (t : Fin cfg0.N) (p : Fin 16) :
    @Eq EReal (iblk m c 5 t (ix2 p (0 : Fin 1))) (m ((c : Thread nD τ).loc main_arg1) (ix2 (row t p) (0 : Fin 1))) := by
  show V m c main_arg1 (((cfg0.win 5).blk t).view.emb (ix2 p (0 : Fin 1))) = _
  rw [V_main_arg1]
  refine congrArg _ (funext fun a => Fin.ext ?_)
  obtain ⟨-, -, -, -, -, -, -, -, -, -, -, -, e0, e1⟩ := idx_facts t
  match a with
  | ⟨0, _⟩ => show win0_5.index t (0 : Fin 2) * 16 + 1 * p.val = t.val * 16 + p.val; omega
  | ⟨1, _⟩ => show win0_5.index t (1 : Fin 2) * 1 + 1 * 0 = 0; omega

/-! ## One entry of a block: the body's value is the specification's -/

/-- For blocks that read the arrays as above, the body's stored value at (p, q) is the specification's entry
    (r, q) — in either half of the columns. -/
theorem block_entry (x0 x1 : FVec Ideal S16x41024 .f32) (x2 : FVec Ideal S256x41024 .bf16) (x3 : FVec Ideal S1x256 .f32) (x4 x5 : FVec Ideal S16x1 .f32)
    (us them : FVec Ideal S2048x1 .f32) (xw xb : FVec Ideal S2048x41024 .f32) (W : FVec Ideal S256x41024 .f32) (b : FVec Ideal S256 .f32)
    (r : Fin 2048) (p : Fin 16) (q : Fin 512)
    (h0 : ∀ k, x0 (ix2 p k) = xw (ix2 r k)) (h1 : ∀ k, x1 (ix2 p k) = xb (ix2 r k))
    (h2 : ∀ j k, x2 (ix2 j k) = W (ix2 j k)) (h3 : ∀ j, x3 (ix2 (0 : Fin 1) j) = b (ix1 j))
    (h4 : x4 (ix2 p (0 : Fin 1)) = us (ix2 r (0 : Fin 1))) (h5 : x5 (ix2 p (0 : Fin 1)) = them (ix2 r (0 : Fin 1))) :
    k0_pay1 (F := Ideal) x0 x1 x2 x3 x4 x5 (ix2 p q) = Cert.Mix.entry us them xw xb W b r q := by
  by_cases h : q.val < 256
  · rw [Cert.KernelIdeal.Entry.payload_left x0 x1 x2 x3 x4 x5 p q h, Cert.Mix.entry_left us them xw xb W b r q h]
    unfold Cert.Mix.lin
    simp only [h0, h1, h2, h3, h4, h5]
  · have hq : q.val < 512 := q.isLt
    have hj : ((⟨q.val - 256, by omega⟩ : Fin 256)).val + 256 = q.val := by show q.val - 256 + 256 = q.val; omega
    rw [Cert.KernelIdeal.Entry.payload_right x0 x1 x2 x3 x4 x5 p q ⟨q.val - 256, by omega⟩ hj,
      Cert.Mix.entry_right us them xw xb W b r q h ⟨q.val - 256, by omega⟩ hj]
    unfold Cert.Mix.lin
    simp only [h0, h1, h2, h3, h4, h5]

/-! ## What a point writes back, the cover, and the array after the run -/

/-- What point `t` writes back is block `t` of the specification's result. -/
theorem flushed_eq (c : Dev nD) (t : Fin cfg0.N) :
    (dats m 0 c).flushed 6 t = ((cfg0.win 6).blk t).view.read (Elt Ideal) (target m c) := by
  rw [Cert.KernelIdeal.Value.flushed6]
  unfold out0_6
  rw [View.canon_unit_zero hz]
  simp only [View.ld_unit_zero (S := S16x41024) hz, View.ld_unit_zero (S := S256x41024) hz,
    View.ld_unit_zero (S := S1x256) hz, View.ld_unit_zero (S := S16x1) hz]
  funext y
  have hy : ((cfg0.win 6).blk t).view.emb y = ix2 (row t (y 0)) (y 1) := by
    obtain ⟨e0, e1, -⟩ := idx_facts t
    funext a; apply Fin.ext
    match a with
    | ⟨0, _⟩ => show win0_6.index t (0 : Fin 2) * 16 + 1 * (y 0).val = t.val * 16 + (y 0).val; omega
    | ⟨1, _⟩ => show win0_6.index t (1 : Fin 2) * 512 + 1 * (y 1).val = (y 1).val; omega
  show k0_pay1 (F := Ideal) (iblk m c 0 t) (iblk m c 1 t) (iblk m c 2 t) (iblk m c 3 t) (iblk m c 4 t) (iblk m c 5 t) y
    = target m c (((cfg0.win 6).blk t).view.emb y)
  rw [hy, eq_ix2 y]
  exact block_entry (iblk m c 0 t) (iblk m c 1 t) (iblk m c 2 t) (iblk m c 3 t) (iblk m c 4 t) (iblk m c 5 t)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (row t (y 0)) (y 0) (y 1)
    (fun k => featW_at m c t (y 0) k) (fun k => featB_at m c t (y 0) k)
    (fun j k => weight_at m c t j k) (fun j => bias_at m c t j)
    (us_at m c t (y 0)) (them_at m c t (y 0))

/-- An index of the result array is in point `t`'s block iff each coordinate is in the block's range on its axis. -/
theorem mem_blk (t : Fin cfg0.N) (i : S2048x512.Idx) :
    i ∈ ((cfg0.win 6).blk t).view.set ↔ ∀ a : Fin 2, win0_6.index t a * S16x512.size a ≤ (i a).val ∧ (i a).val < win0_6.index t a * S16x512.size a + S16x512.size a := by
  show i ∈ ((View.whole main_v2).slice (win0_6.rect t)).set ↔ _
  rw [View.set_slice_whole, Rect.mem_set_unit]
  exact Iff.rfl

/-- Every index of the result array lies in some point's block: row `r` in the block of point `r / 16`. -/
theorem cover (i : S2048x512.Idx) : ∃ t : Fin cfg0.N, (cfg0.win 6).flush t = true ∧ i ∈ ((cfg0.win 6).blk t).view.set := by
  have hi0 : (i 0).val < 2048 := (i 0).isLt
  have hi1 : (i 1).val < 512 := (i 1).isLt
  obtain ⟨t, ht⟩ : ∃ t : Fin cfg0.N, t.val = (i 0).val / 16 := ⟨⟨(i 0).val / 16, by show (i 0).val / 16 < 128; omega⟩, rfl⟩
  refine ⟨t, flush0_6 t, ?_⟩
  rw [mem_blk]
  obtain ⟨e0, e1, -⟩ := idx_facts t
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 512 ≤ (i 1).val ∧ (i 1).val < win0_6.index t (1 : Fin 2) * 512 + 512; omega

/-- The result array after the run is the specification's result of the launched arguments. -/
theorem final (c : Dev nD) : (dats m 0 c).arrAt 6 cfg0.N = target m c :=
  (dats m 0 c).arrAt_eq_of_cover 6 (target m c) (fun t _ => flushed_eq m c t) cover

/-- The kernel's run: it terminates with the result array at the specification's result and the arguments
    unchanged. -/
theorem run : θ_run defs (onTc (τ := τ) (main (F := Ideal))) ⟨m, fun _ => 0, ρ⟩ fun r => ∀ c : Dev nD,
      r.2.mem ((c : Thread nD τ).loc main_v2) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Array

end
-- ==== Proof.RefEntry.lean ====
/-
  What the reference computes, read at one entry of its [2048 × 512] result, over the extended reals.

  The reference forms the two layers whole: each feature matrix times the transposed weight, plus the bias repeated
  down the rows. It joins them side by side twice, once as (w | v) and once as (v | w), weighs the first join by `us`
  and the second by `them`, adds, and clamps to [0, 1]. So a column of the first half reads `us · w + them · v`, as
  the specification does; a column of the second half reads `us · v + them · w`, which is the specification's
  `them · w + us · v` with the two summands exchanged. Addition of extended reals is commutative, and that one law is
  all that joins the two arrangements: no input need be finite for it.
-/
import proofs.«180061_j10204842296092_1_alg».proof.Proof.Gen.ReferenceIdeal.Read
import proofs.«180061_j10204842296092_1_alg».proof.Proof.MixSpec
import Idealize.ShloMosaic.Lib.Pipeline.Value
import Idealize.ShloMosaic.Lib.ValueIdx
import Idealize.ShloMosaic.PureOps.Ideal.Laws

noncomputable section

open scoped BigOperators

namespace Cert.ReferenceIdeal.Entry

open Cert.ReferenceIdeal Cert.ReferenceIdeal.Gen Cert.ReferenceIdeal.Read Idealize.ShloMosaic Idealize.ShloMosaic.ValueIdx

/-! ## The composed index functions are the coordinates -/

/-- The first layer's product reads the feature matrix at (row, k) … -/
theorem lidx_v1 (r : Fin 2048) (j : Fin 256) (k : Fin 41024) : lidx_main_v1 (ix2 r j) k = ix2 r k :=
  funext fun a => Fin.ext (by match a with | ⟨0, _⟩ => rfl | ⟨1, _⟩ => rfl)
/-- … and the weight, through its transpose, at (column, k). -/
theorem ridx_v1 (r : Fin 2048) (j : Fin 256) (k : Fin 41024) : idx_main_v0 (ridx_main_v1 (ix2 r j) k) = ix2 j k :=
  funext fun a => Fin.ext (by match a with | ⟨0, _⟩ => rfl | ⟨1, _⟩ => rfl)
/-- The same for the second layer's product. -/
theorem lidx_v6 (r : Fin 2048) (j : Fin 256) (k : Fin 41024) : lidx_main_v6 (ix2 r j) k = ix2 r k :=
  funext fun a => Fin.ext (by match a with | ⟨0, _⟩ => rfl | ⟨1, _⟩ => rfl)
theorem ridx_v6 (r : Fin 2048) (j : Fin 256) (k : Fin 41024) : idx_main_v5 (ridx_main_v6 (ix2 r j) k) = ix2 j k :=
  funext fun a => Fin.ext (by match a with | ⟨0, _⟩ => rfl | ⟨1, _⟩ => rfl)
/-- The bias repeated down the rows is read at the column. -/
theorem bias_v3 (r : Fin 2048) (j : Fin 256) : idx_main_v2 (idx_main_v3 (ix2 r j)) = ix1 j :=
  funext fun a => Fin.ext (by match a with | ⟨0, _⟩ => rfl)
theorem bias_v8 (r : Fin 2048) (j : Fin 256) : idx_main_v7 (idx_main_v8 (ix2 r j)) = ix1 j :=
  funext fun a => Fin.ext (by match a with | ⟨0, _⟩ => rfl)
/-- A mixing weight repeated across the columns is read at the row. -/
theorem weight_v12 (r : Fin 2048) (q : Fin 512) : idx_main_v12 (ix2 r q) = ix2 r (0 : Fin 1) :=
  funext fun a => Fin.ext (by match a with | ⟨0, _⟩ => rfl | ⟨1, _⟩ => rfl)
theorem weight_v14 (r : Fin 2048) (q : Fin 512) : idx_main_v14 (ix2 r q) = ix2 r (0 : Fin 1) :=
  funext fun a => Fin.ext (by match a with | ⟨0, _⟩ => rfl | ⟨1, _⟩ => rfl)

/-! ## The two layers at an entry -/

/-- The first layer at (r, j) is the specification's. -/
theorem layer_w (x2 : FVec Ideal S2048x41024 .f32) (x4 : FVec Ideal S256x41024 .f32) (x5 : FVec Ideal S256 .f32) (r : Fin 2048) (j : Fin 256) :
    val_main_v4 (F := Ideal) x2 x4 x5 (ix2 r j) = Cert.Mix.lin x2 x4 x5 r j := by
  rw [val_main_v4_apply, val_main_v1_apply, val_main_v3_apply, val_main_v2_apply, bias_v3]
  unfold Cert.Mix.lin
  simp only [val_main_v0_apply, lidx_v1, ridx_v1, Ideal.addf_def]

/-- The second layer at (r, j) is the specification's. -/
theorem layer_v (x3 : FVec Ideal S2048x41024 .f32) (x4 : FVec Ideal S256x41024 .f32) (x5 : FVec Ideal S256 .f32) (r : Fin 2048) (j : Fin 256) :
    val_main_v9 (F := Ideal) x3 x4 x5 (ix2 r j) = Cert.Mix.lin x3 x4 x5 r j := by
  rw [val_main_v9_apply, val_main_v6_apply, val_main_v8_apply, val_main_v7_apply, bias_v8]
  unfold Cert.Mix.lin
  simp only [val_main_v5_apply, lidx_v6, ridx_v6, Ideal.addf_def]

/-! ## Two layers joined side by side, at an entry -/

/-- At a column of the first half: the first layer there. -/
theorem join_left (a b : FVec Ideal S2048x256 .f32) (r : Fin 2048) (q : Fin 512) (h : q.val < 256) :
    concatenate S2048x512 1 [⟨S2048x256, a⟩, ⟨S2048x256, b⟩] concatenates_S2048x256_S2048x256_S2048x512_d1 (ix2 r q)
      = a (ix2 r (⟨q.val, h⟩ : Fin 256)) :=
  concatenate_pair_apply_left 1 a b concatenates_S2048x256_S2048x256_S2048x512_d1 (ix2 r q) rfl (ix2 r (⟨q.val, h⟩ : Fin 256))
    (fun c => match c with
      | ⟨0, _⟩ => rfl
      | ⟨1, _⟩ => rfl)

/-- At a column of the second half: the second layer, 256 columns back. -/
theorem join_right (a b : FVec Ideal S2048x256 .f32) (r : Fin 2048) (q : Fin 512) (j : Fin 256) (hj : j.val + 256 = q.val) :
    concatenate S2048x512 1 [⟨S2048x256, a⟩, ⟨S2048x256, b⟩] concatenates_S2048x256_S2048x256_S2048x512_d1 (ix2 r q)
      = b (ix2 r j) :=
  concatenate_pair_apply_right 1 a b concatenates_S2048x256_S2048x256_S2048x512_d1 (ix2 r q) rfl rfl (ix2 r j)
    (fun c hc => match c, hc with
      | ⟨0, _⟩, _ => rfl
      | ⟨1, _⟩, hc => absurd rfl hc)
    hj

/-! ## The result at an entry -/

/-- The two bounds the reference clamps with are the specification's words. -/
theorem upper_at (i : S2048x512.Idx) : val_main_call0_v4 (F := Ideal) i = Ideal.ofBits .f32 0x3F800000#32 := by
  rw [val_main_call0_v4_apply, val_main_call0_v3_apply, val_main_cst_0_apply, Ideal.ofBits_def]
theorem lower_at (i : S2048x512.Idx) : val_main_call0_v1 (F := Ideal) i = Ideal.ofBits .f32 0x00000000#32 := by
  rw [val_main_call0_v1_apply, val_main_call0_v0_apply, val_main_cst_apply, Ideal.ofBits_def]

/-- The reference before the clamp, at (r, q). -/
theorem mix_at (x0 x1 : FVec Ideal S2048x1 .f32) (x2 x3 : FVec Ideal S2048x41024 .f32) (x4 : FVec Ideal S256x41024 .f32) (x5 : FVec Ideal S256 .f32)
    (r : Fin 2048) (q : Fin 512) :
    val_main_v16 (F := Ideal) x0 x1 x2 x3 x4 x5 (ix2 r q)
      = x0 (ix2 r (0 : Fin 1)) * val_main_v10 (F := Ideal) x2 x3 x4 x5 (ix2 r q)
        + x1 (ix2 r (0 : Fin 1)) * val_main_v11 (F := Ideal) x2 x3 x4 x5 (ix2 r q) := by
  rw [val_main_v16_apply, val_main_v13_apply, val_main_v15_apply, val_main_v12_apply, val_main_v14_apply, weight_v12, weight_v14,
    Ideal.addf_def, Ideal.mulf_def, Ideal.mulf_def]

/-- The reference at a column of the first half is the specification's entry. -/
theorem entry_left (x0 x1 : FVec Ideal S2048x1 .f32) (x2 x3 : FVec Ideal S2048x41024 .f32) (x4 : FVec Ideal S256x41024 .f32) (x5 : FVec Ideal S256 .f32)
    (r : Fin 2048) (q : Fin 512) (h : q.val < 256) :
    val_main_v17 (F := Ideal) x0 x1 x2 x3 x4 x5 (ix2 r q) = Cert.Mix.entry x0 x1 x2 x3 x4 x5 r q := by
  rw [Cert.Mix.entry_left x0 x1 x2 x3 x4 x5 r q h, val_main_v17_apply, val_main_call0_v2_apply, upper_at, lower_at, mix_at]
  unfold val_main_v10 val_main_v11
  rw [join_left _ _ r q h, join_left _ _ r q h, layer_w, layer_v, Ideal.minimumf_def, Ideal.maximumf_def]
  rfl

/-- The reference at a column of the second half is the specification's entry, its two summands exchanged. -/
theorem entry_right (x0 x1 : FVec Ideal S2048x1 .f32) (x2 x3 : FVec Ideal S2048x41024 .f32) (x4 : FVec Ideal S256x41024 .f32) (x5 : FVec Ideal S256 .f32)
    (r : Fin 2048) (q : Fin 512) (h : ¬ q.val < 256) :
    val_main_v17 (F := Ideal) x0 x1 x2 x3 x4 x5 (ix2 r q) = Cert.Mix.entry x0 x1 x2 x3 x4 x5 r q := by
  have hq : q.val < 512 := q.isLt
  have hj : ((⟨q.val - 256, by omega⟩ : Fin 256)).val + 256 = q.val := by show q.val - 256 + 256 = q.val; omega
  rw [Cert.Mix.entry_right x0 x1 x2 x3 x4 x5 r q h ⟨q.val - 256, by omega⟩ hj, val_main_v17_apply, val_main_call0_v2_apply,
    upper_at, lower_at, mix_at]
  unfold val_main_v10 val_main_v11
  rw [join_right _ _ r q ⟨q.val - 256, by omega⟩ hj, join_right _ _ r q ⟨q.val - 256, by omega⟩ hj, layer_w, layer_v,
    Ideal.minimumf_def, Ideal.maximumf_def, add_comm]
  rfl

/-- The reference's whole result is the specification's array. -/
theorem result_eq (x0 x1 : FVec Ideal S2048x1 .f32) (x2 x3 : FVec Ideal S2048x41024 .f32) (x4 : FVec Ideal S256x41024 .f32) (x5 : FVec Ideal S256 .f32) :
    val_main_v17 (F := Ideal) x0 x1 x2 x3 x4 x5 = Cert.Mix.result x0 x1 x2 x3 x4 x5 := by
  funext i
  obtain ⟨r, q, rfl⟩ : ∃ (r : Fin 2048) (q : Fin 512), i = ix2 r q := ⟨i 0, i 1, eq_ix2 i⟩
  show _ = Cert.Mix.entry x0 x1 x2 x3 x4 x5 r q
  by_cases h : q.val < 256
  · exact entry_left x0 x1 x2 x3 x4 x5 r q h
  · exact entry_right x0 x1 x2 x3 x4 x5 r q h

end Cert.ReferenceIdeal.Entry

end
-- ==== Proof.lean ====
/-
  The feature transformer's kernel against its reference, over the extended reals.

  Both programs compute, for every row `r` of 2048 and every column `q` of 512, the clamp to [0, 1] of a mix of two
  linear layers: with `w = x_w · Wᵀ + bias` and `v = x_b · Wᵀ + bias`, the first 256 columns hold
  `us · w + them · v` and the last 256 hold the two layers weighed the other way round (Proof/MixSpec.lean). The kernel
  works 16 rows at a time over a grid of 128 points, multiplies each feature block with the transposed weight in one
  product into a zero accumulator, and writes the two mixes side by side; what it leaves is the specification's
  result, entry by entry and block by block (Proof/KernelEntry.lean, Proof/KernelArray.lean). The reference forms the
  layers whole, joins them twice and weighs the joins; read at an entry it is the same function, the second half by
  commutativity of addition (Proof/RefEntry.lean). A narrowing of the float format is the identity over the extended
  reals, a product into a zero accumulator and the host's contraction are the same sum, and no step needs an input to
  be finite, so the precondition is never opened.

  The three programs run, without a fault and with their arguments unchanged: the two kernel programs by their frame
  certificates, the reference by its run read back. The idealized kernel is the printed kernel read over the extended
  reals, no operation rewritten.
-/
import proofs.«180061_j10204842296092_1_alg».proof.Defs
import proofs.«180061_j10204842296092_1_alg».proof.Proof.Gen.Kernel
import proofs.«180061_j10204842296092_1_alg».proof.Proof.Gen.Kernel.Skeleton
import proofs.«180061_j10204842296092_1_alg».proof.Proof.Gen.Kernel.Launch
import proofs.«180061_j10204842296092_1_alg».proof.Proof.Gen.Kernel.Points
import proofs.«180061_j10204842296092_1_alg».proof.Proof.Gen.Kernel.Frame
import proofs.«180061_j10204842296092_1_alg».proof.Proof.Gen.KernelIdeal
import proofs.«180061_j10204842296092_1_alg».proof.Proof.Gen.KernelIdeal.Skeleton
import proofs.«180061_j10204842296092_1_alg».proof.Proof.Gen.KernelIdeal.Launch
import proofs.«180061_j10204842296092_1_alg».proof.Proof.Gen.KernelIdeal.Points
import proofs.«180061_j10204842296092_1_alg».proof.Proof.Gen.KernelIdeal.Frame
import proofs.«180061_j10204842296092_1_alg».proof.Proof.Gen.ReferenceIdeal
import proofs.«180061_j10204842296092_1_alg».proof.Proof.Gen.Pre_finite_inputs
import proofs.«180061_j10204842296092_1_alg».proof.Proof.Gen.KernelIdeal.Value
import proofs.«180061_j10204842296092_1_alg».proof.Proof.Gen.ReferenceIdeal.Run
import proofs.«180061_j10204842296092_1_alg».proof.Proof.Gen.ReferenceIdeal.Read
import proofs.«180061_j10204842296092_1_alg».proof.Proof.KernelArray
import proofs.«180061_j10204842296092_1_alg».proof.Proof.RefEntry
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the six arguments, the kernel ends with its result array at the specification's
    result of them, and the reference ends with its result at the same function of its own arguments, which are the
    same arrays. -/
theorem algebraic : Cert.algebraic_KernelIdeal_ReferenceIdeal := by
  intro m ρ m' ρ' _ hagree
  refine ⟨fun c => Cert.KernelIdeal.Array.target m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Entry.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
